-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192 .f32) (main_arg1 : FVec F S8192x8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192 : Shape := ⟨1, ![8192]⟩
abbrev S8192x8192 : Shape := ⟨2, ![8192, 8192]⟩
abbrev S8192x1 : Shape := ⟨2, ![8192, 1]⟩
abbrev S1024x1 : Shape := ⟨2, ![1024, 1]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x1, .f32⟩
  | .hbm, ⟨3, _⟩ => ⟨S8192x8192, .f32⟩
  | .local _ .vmem, ⟨0, _⟩ => ⟨S1024x1, .f32⟩
  | .local _ .vmem, ⟨1, _⟩ => ⟨S1024x1, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  broadcasts_S1024x1_S1024x2048 : S1024x1.Broadcasts S1024x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192 : Shape := ⟨1, ![8192]⟩
abbrev S8192x8192 : Shape := ⟨2, ![8192, 8192]⟩
abbrev S8192x1 : Shape := ⟨2, ![8192, 1]⟩

abbrev nBuf : Space → Nat
  | .hbm => 5
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x1, .f32⟩
  | .hbm, ⟨3, _⟩ => ⟨S8192x8192, .f32⟩
  | .hbm, ⟨4, _⟩ => ⟨S8192x8192, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.RowScale.lean ====
/-
  Row scaling of a matrix by a vector: the one function both programs compute.

  For a vector `a` of 8192 entries and an 8192 × 8192 matrix `b`, entry (r, c) of the result is
  `a r · b (r, c)`: the matrix entry multiplied, on the left, by the vector's entry at the matrix index's ROW.
  This is `diag(a) · b` written without the matrix product.

  It is stated at any float instance. Both programs multiply the same two numbers in the same order at every
  index, so no law of the extended reals (and no finiteness of the inputs) is needed to join them: the two
  sides differ only in how they REACH the entry `a r` — the kernel through a column block of the vector
  reshaped to 8192 × 1 and broadcast along the lanes, the reference through two broadcasts of the vector.
-/
import Idealize.ShloMosaic.PureOps.Ideal
import Idealize.ShloMosaic.Lib.ValueIdx

noncomputable section

namespace Cert.RowScale

open Idealize.ShloMosaic

variable {F : FTy → Type} [FloatOps F]

/-- The vector's shape: 8192 entries. -/
abbrev Rows : Shape := ⟨1, ![8192]⟩
/-- The matrix's shape: 8192 rows of 8192 entries. -/
abbrev Entries : Shape := ⟨2, ![8192, 8192]⟩

/-- The row of a matrix index, as an index of the vector. -/
abbrev rowOf (i : Entries.Idx) : Rows.Idx := fun a => match a with
  | ⟨0, _⟩ => ⟨(i 0).val, (i 0).isLt⟩

/-- Row scaling: entry `i = (r, c)` of the result is `a r · b (r, c)`. -/
def rowScale (a : Rows.Idx → Elt F .f32) (b : Entries.Idx → Elt F .f32) : Entries.Idx → Elt F .f32 :=
  fun i => FloatOps.mulf (a (rowOf i)) (b i)

theorem rowScale_apply (a : Rows.Idx → Elt F .f32) (b : Entries.Idx → Elt F .f32) (i : Entries.Idx) :
    rowScale a b i = FloatOps.mulf (a (rowOf i)) (b i) := rfl

/-- Two vector indices with the same coordinate are one index. -/
theorem rows_ext {r r' : Rows.Idx} (h : (r 0).val = (r' 0).val) : r = r' :=
  funext fun a => Fin.ext (by match a with | ⟨0, _⟩ => exact h)

end Cert.RowScale

end
-- ==== Proof.ReferenceRowScale.lean ====
/-
  The reference computes row scaling.

  The reference broadcasts the vector twice — first to a column (8192 × 1: entry (r, 0) is `a r`), then along the
  second axis to the full matrix shape (entry (r, c) is the column's entry (r, 0)) — and multiplies the result, entry
  by entry, with the matrix. Read at an index (r, c), the two broadcasts compose to "the vector at r", which is the
  row of the index: the reference's result is `rowScale a b`.
-/
import proofs.«140349_j70428873719964_1_alg».proof.Proof.Gen.ReferenceIdeal.Read
import proofs.«140349_j70428873719964_1_alg».proof.Proof.RowScale

noncomputable section

namespace Cert.ReferenceIdeal.RowScaled

open Cert.ReferenceIdeal Cert.ReferenceIdeal.Gen Cert.ReferenceIdeal.Read Idealize.ShloMosaic Cert.RowScale

variable {F : FTy → Type} [FloatOps F]

/-- Through the two broadcasts, matrix index (r, c) reads the vector at r. -/
theorem broadcasts_read_row (i : S8192x8192.Idx) : idx_main_v0 (idx_main_v1 i) = rowOf i :=
  rows_ext rfl

/-- The reference's last stage — the product of the twice-broadcast vector with the matrix — is row scaling. -/
theorem stage_eq_rowScale (a : (⟨S8192, .f32⟩ : BufTy).Contents (Elt F)) (b : (⟨S8192x8192, .f32⟩ : BufTy).Contents (Elt F)) :
    val_main_v2 (F := F) a b = rowScale a b := by
  funext i
  rw [val_main_v2_apply, val_main_v1_apply, val_main_v0_apply, broadcasts_read_row]
  rfl

end Cert.ReferenceIdeal.RowScaled

end
-- ==== Proof.KernelRowScale.lean ====
/-
  The kernel computes row scaling.

  On the host the vector is reshaped to a column (8192 × 1); the column's entry (r, 0) is the vector's entry r, because
  both sit at position r in row-major order. The region then walks an 8 × 4 grid of points. At point (p, q) it holds
  the column's rows 1024·p … 1024·p + 1023 and the matrix's block of those rows and the columns 2048·q … 2048·q + 2047;
  it broadcasts the column block along the lanes, multiplies it entry by entry with the matrix block, and writes the
  product back as the same block of the result. So the block a point writes back is the restriction of `rowScale` to
  that block: entry (y₀, y₁) of the block is the column at row y₀ of the block — the vector at 1024·p + y₀ — times the
  matrix at (1024·p + y₀, 2048·q + y₁). The 32 blocks tile the result (row r and column c lie in the block of the
  point (r / 1024, c / 2048)), so after the run the result array is `rowScale` of the two arguments.
-/
import proofs.«140349_j70428873719964_1_alg».proof.Proof.Gen.KernelIdeal.Value
import proofs.«140349_j70428873719964_1_alg».proof.Proof.RowScale
import Idealize.ShloMosaic.Lib.Pipeline.Value
import Idealize.ShloMosaic.Lib.StableHlo.Run

noncomputable section

namespace Cert.KernelIdeal.RowScaled

open Cert.KernelIdeal Cert.KernelIdeal.Gen Idealize.ShloMosaic Idealize.ShloMosaic.TcCoe Idealize.SL.Sem
open Idealize.ShloMosaic.StableHlo Cert.RowScale
open Idealize.ShloMosaic.Pipeline (Dat)

variable {F : FTy → Type} [FloatOps F]
variable (m : (ℓ : Loc nD τ sig) → Buf (Elt F) ℓ) (ρ : Dev nD → PrngReg)

/-! ## The column the host makes of the vector -/

/-- When the region is entered, the column holds the vector reshaped. -/
theorem column_eq (c : Dev nD) :
    (V m c main_v0 : S8192x1.Idx → Elt F .f32)
      = shapeCast S8192x1 (m ((c : Thread nD τ).loc main_arg0)) shapeCasts_S8192_S8192x1 := by
  dsimp only [Gen.V, Gen.hostOps0]; after_results; rfl

/-- The column's entry in row `k 0` is the vector's entry there: both are at that position in row-major order. -/
theorem column_apply (c : Dev nD) (k : S8192x1.Idx) (r : Rows.Idx) (h : (r 0).val = (k 0).val) :
    V m c main_v0 k = m ((c : Thread nD τ).loc main_arg0) r := by
  have h1 : (k 1).val < 1 := (k 1).isLt
  rw [column_eq]
  refine shapeCast_apply _ _ k r ?_
  rw [Shape.rowMajor_val_one, Shape.rowMajor_val_two]
  show (r 0).val = (k 0).val * 1 + (k 1).val
  omega

/-! ## What one point leaves in its block -/

theorem origin : (![0, 0] : Fin 2 → Nat) = fun _ => 0 := funext fun a => by fin_cases a <;> rfl

/-- The body's result block from a column block `x0` and a matrix block `x1`: entry (y₀, y₁) is the column block's
    entry in row y₀ times the matrix block's entry (y₀, y₁). -/
theorem block_apply (x0 : Vec F S1024x1 .f32) (x1 : Vec F S1024x2048 .f32) (y : S1024x2048.Idx) :
    out0_2 x0 x1 y = FloatOps.mulf (x0 (Value.ix2_0 y)) (x1 y) := by
  unfold out0_2
  simp only [View.ld_unit_zero (S := S1024x1) origin, View.ld_unit_zero (S := S1024x2048) origin]
  refine (Value.canon2_eq x0 x1 y).trans ?_
  show FloatOps.mulf (x0 (Value.ix2_0 y)) (x1 (Value.ix2_1 y)) = _
  have e : Value.ix2_1 y = y := funext fun a => Fin.ext (by match a with | ⟨0, _⟩ => rfl | ⟨1, _⟩ => rfl)
  rw [e]

/-- The three windows move together over the grid: the column's and the matrix's row blocks are the result's, the
    matrix's column block is the result's. -/
theorem windows_aligned : ∀ t : Fin cfg0.N, win0_0.index t (0 : Fin 2) = win0_2.index t (0 : Fin 2)
    ∧ win0_1.index t (0 : Fin 2) = win0_2.index t (0 : Fin 2)
    ∧ win0_1.index t (1 : Fin 2) = win0_2.index t (1 : Fin 2) :=
  (by decide +kernel : ∀ t : Fin grid0.N, _)

/-- What point `t` writes back is block `t` of `rowScale` of the two arguments. -/
theorem written_block_eq (c : Dev nD) (t : Fin cfg0.N) :
    (dats m 0 c).flushed 2 t
      = ((cfg0.win 2).blk t).view.read (Elt F) (rowScale (m ((c : Thread nD τ).loc main_arg0)) (m ((c : Thread nD τ).loc main_arg1))) := by
  rw [Value.flushed2]
  funext j
  show out0_2 (iblk m c 0 t) (iblk m c 1 t) j
    = rowScale (m ((c : Thread nD τ).loc main_arg0)) (m ((c : Thread nD τ).loc main_arg1)) (((cfg0.win 2).blk t).view.emb j)
  refine (block_apply (iblk m c 0 t) (iblk m c 1 t) j).trans ?_
  show FloatOps.mulf (V m c main_v0 (((cfg0.win 0).blk t).view.emb (Value.ix2_0 j))) (V m c main_arg1 (((cfg0.win 1).blk t).view.emb j))
    = FloatOps.mulf (m ((c : Thread nD τ).loc main_arg0) (rowOf (((cfg0.win 2).blk t).view.emb j)))
        (m ((c : Thread nD τ).loc main_arg1) (((cfg0.win 2).blk t).view.emb j))
  obtain ⟨e0, e1, e2⟩ := windows_aligned t
  have h1 : ((cfg0.win 1).blk t).view.emb j = ((cfg0.win 2).blk t).view.emb j := by
    funext a; apply Fin.ext
    match a with
    | ⟨0, _⟩ => show win0_1.index t (0 : Fin 2) * 1024 + 1 * (j 0).val = win0_2.index t (0 : Fin 2) * 1024 + 1 * (j 0).val; omega
    | ⟨1, _⟩ => show win0_1.index t (1 : Fin 2) * 2048 + 1 * (j 1).val = win0_2.index t (1 : Fin 2) * 2048 + 1 * (j 1).val; omega
  have h0 : V m c main_v0 (((cfg0.win 0).blk t).view.emb (Value.ix2_0 j))
      = m ((c : Thread nD τ).loc main_arg0) (rowOf (((cfg0.win 2).blk t).view.emb j)) :=
    column_apply m c _ _ (by
      show win0_2.index t (0 : Fin 2) * 1024 + 1 * (j 0).val = win0_0.index t (0 : Fin 2) * 1024 + 1 * (j 0).val
      omega)
  rw [h0, h1]
  exact congrArg _ (congrFun (V_main_arg1 m c) _)

/-! ## The blocks tile the result -/

/-- A matrix index is in point `t`'s block iff each coordinate is in the block's range on its axis. -/
theorem mem_block (t : Fin cfg0.N) (i : S8192x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v1).slice (win0_2.rect t)).set ↔ _
  rw [View.set_slice_whole, Rect.mem_set_unit]
  exact Iff.rfl

/-- Every one of the 8 × 4 blocks is some point's. -/
theorem every_block_visited : ∀ (p : Fin 8) (q : Fin 4), ∃ t : Fin cfg0.N, win0_2.index t = ![p.val, q.val] :=
  (by decide +kernel : ∀ (p : Fin 8) (q : Fin 4), ∃ t : Fin grid0.N, win0_2.index t = ![p.val, q.val])

/-- Entry (r, c) of the result lies in the block of the point (r / 1024, c / 2048), which writes back. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_block_visited ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-! ## The result array, and the run -/

/-- After the last point the result array is `rowScale` of the two arguments. -/
theorem result_eq (c : Dev nD) :
    (dats m 0 c).arrAt 2 cfg0.N = rowScale (m ((c : Thread nD τ).loc main_arg0)) (m ((c : Thread nD τ).loc main_arg1)) :=
  (dats m 0 c).arrAt_eq_of_cover 2 (rowScale (m ((c : Thread nD τ).loc main_arg0)) (m ((c : Thread nD τ).loc main_arg1)))
    (fun t _ => written_block_eq m c t) covered

/-- Every weakly fair execution of the kernel program terminates with the result at `rowScale` of the arguments and the
    arguments unchanged. -/
theorem run : θ_run defs (onTc (τ := τ) (main (F := F))) ⟨m, fun _ => 0, ρ⟩ fun r => ∀ c : Dev nD,
      r.2.mem ((c : Thread nD τ).loc main_v1) = rowScale (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Value.run_blocks m ρ)

end Cert.KernelIdeal.RowScaled

end
-- ==== Proof.lean ====
/-
  Row scaling, `diag(A) · B`, computed by a tiled kernel and by a broadcast-and-multiply reference: the certificate's proof.

  Both programs take a vector `A` of 8192 floats and an 8192 × 8192 matrix `B` and return the matrix whose entry
  (r, c) is `A r · B (r, c)` (Proof/RowScale.lean: `rowScale`).

  * The reference broadcasts `A` to a column and then to the full shape and multiplies with `B`; read at an index the
    two broadcasts reach "A at the index's row" (Proof/ReferenceRowScale.lean).
  * The kernel reshapes `A` to a column on the host and walks an 8 × 4 grid; each point multiplies a 1024-row block of
    the column, broadcast along the lanes, with the matching 1024 × 2048 block of `B` and writes the product back as
    the same block of the result. Each written block is the restriction of `rowScale`, and the 32 blocks tile the
    result (Proof/KernelRowScale.lean).

  The two sides multiply the same two numbers in the same order at every index, so they agree at any float instance —
  in particular over the extended reals — and the proof never opens the finiteness precondition. The idealization
  rewrote no operation of the kernel, so there is nothing to preserve. The three frames are the generated frame runs
  (for the reference: its run with the result dropped).
-/
import proofs.«140349_j70428873719964_1_alg».proof.Defs
import proofs.«140349_j70428873719964_1_alg».proof.Proof.Gen.Kernel
import proofs.«140349_j70428873719964_1_alg».proof.Proof.Gen.Kernel.Skeleton
import proofs.«140349_j70428873719964_1_alg».proof.Proof.Gen.Kernel.Launch
import proofs.«140349_j70428873719964_1_alg».proof.Proof.Gen.Kernel.Points
import proofs.«140349_j70428873719964_1_alg».proof.Proof.Gen.Kernel.Frame
import proofs.«140349_j70428873719964_1_alg».proof.Proof.Gen.KernelIdeal
import proofs.«140349_j70428873719964_1_alg».proof.Proof.Gen.KernelIdeal.Skeleton
import proofs.«140349_j70428873719964_1_alg».proof.Proof.Gen.KernelIdeal.Launch
import proofs.«140349_j70428873719964_1_alg».proof.Proof.Gen.KernelIdeal.Points
import proofs.«140349_j70428873719964_1_alg».proof.Proof.Gen.KernelIdeal.Frame
import proofs.«140349_j70428873719964_1_alg».proof.Proof.Gen.ReferenceIdeal
import proofs.«140349_j70428873719964_1_alg».proof.Proof.Gen.Pre_finite_inputs
import proofs.«140349_j70428873719964_1_alg».proof.Proof.Gen.KernelIdeal.Value
import proofs.«140349_j70428873719964_1_alg».proof.Proof.Gen.ReferenceIdeal.Run
import proofs.«140349_j70428873719964_1_alg».proof.Proof.Gen.ReferenceIdeal.Read
import proofs.«140349_j70428873719964_1_alg».proof.Proof.RowScale
import proofs.«140349_j70428873719964_1_alg».proof.Proof.ReferenceRowScale
import proofs.«140349_j70428873719964_1_alg».proof.Proof.KernelRowScale
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals, from memories that agree on `A` and `B`, both programs end with the result at
    `rowScale A B`: the kernel by its blocks, the reference by its two broadcasts. -/
theorem algebraic : Cert.algebraic_KernelIdeal_ReferenceIdeal := by
  intro m ρ m' ρ' _ hagree
  refine ⟨fun c => Cert.RowScale.rowScale (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RowScaled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v2_eq]
  exact Cert.ReferenceIdeal.RowScaled.stage_eq_rowScale _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
